-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S1x8192 : Shape := ⟨2, ![1, 8192]⟩
abbrev S1024x128 : Shape := ⟨2, ![1024, 128]⟩
abbrev S1x1024 : Shape := ⟨2, ![1, 1024]⟩
abbrev S1024 : Shape := ⟨1, ![1024]⟩
abbrev S1024x1 : Shape := ⟨2, ![1024, 1]⟩
abbrev S128x1024 : Shape := ⟨2, ![128, 1024]⟩
abbrev S1024x1024 : Shape := ⟨2, ![1024, 1024]⟩
abbrev S_ : Shape := ⟨0, ![]⟩
abbrev S8192 : Shape := ⟨1, ![8192]⟩

abbrev nBuf : Space → Nat
  | .hbm => 26
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S1x8192, .f32⟩
  | .hbm, ⟨3, _⟩ => ⟨S_, .f32⟩
  | .hbm, ⟨4, _⟩ => ⟨S_, .f32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S8192x128, .f32⟩
  | .local _ .vmem, ⟨1, _⟩ => ⟨S1024x128, .f32⟩
  | .local _ .vmem, ⟨2, _⟩ => ⟨S1024x128, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_cst_5 : Ref sig .tc := ⟨.hbm, 22, rfl⟩
abbrev main_v14 : Ref sig .tc := ⟨.hbm, 23, rfl⟩
abbrev main_cst_6 : Ref sig .tc := ⟨.hbm, 24, rfl⟩
abbrev main_v15 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  h_S1024x128 : 0 < S1024x128.numel
  inb_S1024x128_S1024x128_0_0 : ∀ a, (![0, 0] : Fin 2 → Nat) a + S1024x128.size a ≤ S1024x128.size a
  reduces_S1024x128_S1024 : S1024x128.Reduces [1] S1024
  shapeCasts_S1024_S1024x1 : S1024.ShapeCasts S1024x1
  bitsLt_bf16_f32 : FTy.bits .bf16 < FTy.bits .f32
  transposes_S1024x128_p1_0_S128x1024 : S1024x128.Transposes [1, 0] S128x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  reduces_S1024x1024_S1024 : S1024x1024.Reduces [0] S1024
  shapeCasts_S1024_S1x1024 : S1024.ShapeCasts S1x1024
  reducesTo_S1x8192_S_d0_1 : S1x8192.ReducesTo [0, 1] S_
  h_S_ : 0 < S_.numel
  reducesTo_S8192x128_S8192_d1 : S8192x128.ReducesTo [1] S8192
  bcast_S_S8192 : S_.BroadcastsInDim S8192 (![] : Fin 0 → Fin S8192.rank)
  reducesTo_S8192_S_d0 : S8192.ReducesTo [0] S_
  dot_S1024x128_S128x1024_S1024x1024_1_0_0_1_n_n_wf : DotDims.WF S1024x128 S128x1024 S1024x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x128.size a ≤ S8192x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 47
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x128, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S128x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .i32⟩
  | .hbm, ⟨24, _⟩ => ⟨S8192x8192, .i32⟩
  | .hbm, ⟨25, _⟩ => ⟨S_, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_v0 : Ref sig .tc := ⟨.hbm, 23, rfl⟩
abbrev main_call0_v1 : Ref sig .tc := ⟨.hbm, 24, rfl⟩
abbrev main_call0_c : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_cst : Ref sig .tc := ⟨.hbm, 29, rfl⟩
abbrev main_call0_v5 : Ref sig .tc := ⟨.hbm, 30, rfl⟩
abbrev main_call0_v6 : Ref sig .tc := ⟨.hbm, 31, rfl⟩
abbrev main_call0_cst_0 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_4 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_cst_6 : Ref sig .tc := ⟨.hbm, 43, rfl⟩
abbrev main_v24 : Ref sig .tc := ⟨.hbm, 44, rfl⟩
abbrev main_cst_7 : Ref sig .tc := ⟨.hbm, 45, rfl⟩
abbrev main_v25 : Ref sig .tc := ⟨.hbm, 46, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Spec.lean ====
/-
  The mathematics both programs compute, stated once over the extended reals.

  For two arrays X, Y of 8192 rows and 128 columns, the distance of row r of X to row c of Y is computed through the
  expansion  dist r c = sqrt (max ((|X r|² + |Y c|²) - 2 · ⟨X r, Y c⟩) 0).  The loss is an affine function (`lossTail`) of
  two numbers: the sum of all 8192 × 8192 distances (`total`) and the sum of the 8192 diagonal ones (`diagRef`).
  One program obtains the diagonal from the differences of the rows instead, sqrt (max (∑ₖ (X r k - Y r k)²) 0)
  (`diagKer`); over finite entries the two are equal, because (x - y)² = x² + y² - 2xy on the reals and finite sums
  of reals are real.  The total is accumulated column by column over eight slabs of 1024 rows (`partialSum`).
-/
import Idealize.ShloMosaic.PureOps
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The shape of the two argument arrays: 8192 rows of 128 entries. -/
abbrev SA : Shape := ⟨2, ![8192, 128]⟩
/-- The shape of a scalar. -/
abbrev S0 : Shape := ⟨0, ![]⟩
/-- An argument array over the extended reals. -/
abbrev Arr : Type := SA.Idx → EReal

/-- The squared norm of row `r`. -/
def rowSq (X : Arr) (r : Fin 8192) : EReal := ∑ k : Fin 128, X (ix2 r k) * X (ix2 r k)
/-- The inner product of row `r` of `X` with row `c` of `Y`. -/
def rowDot (X Y : Arr) (r c : Fin 8192) : EReal := ∑ k : Fin 128, X (ix2 r k) * Y (ix2 c k)
/-- The float literal 2.0 (an exact dyadic, never evaluated: both programs carry the same word). -/
abbrev two : EReal := Ideal.ofBits .f32 0x40000000#32
/-- The distance of row `r` of `X` to row `c` of `Y`, through the expansion of the square, clamped at zero. -/
def dist (X Y : Arr) (r c : Fin 8192) : EReal :=
  Ideal.sqrt (max ((rowSq X r + rowSq Y c) - two * rowDot X Y r c) 0)

/-- Row `r` of slab `k` (slabs of 1024 rows). -/
def rowAt (k : ℕ) (hk : k < 8) (r : Fin 1024) : Fin 8192 := ⟨1024 * k + r.val, by have := r.isLt; omega⟩

/-- Column `c`'s distances summed over the first `k` slabs of rows. -/
def partialSum (X Y : Arr) (c : Fin 8192) (k : ℕ) : EReal :=
  ∑ r ∈ Finset.univ.filter (fun r : Fin 8192 => r.val < 1024 * k), dist X Y r c
/-- Column `c`'s distances summed over all rows. -/
def colSum (X Y : Arr) (c : Fin 8192) : EReal := ∑ r : Fin 8192, dist X Y r c
/-- All distances summed. -/
def total (X Y : Arr) : EReal := ∑ c : Fin 8192, colSum X Y c
/-- The diagonal distances summed, each through the expansion. -/
def diagRef (X Y : Arr) : EReal := ∑ r : Fin 8192, dist X Y r r
/-- The diagonal distances summed, each from the row difference. -/
def diagKer (X Y : Arr) : EReal :=
  ∑ r : Fin 8192, Ideal.sqrt (max (∑ k : Fin 128, (X (ix2 r k) - Y (ix2 r k)) * (X (ix2 r k) - Y (ix2 r k))) 0)

/-- The loss as both programs' last eleven scalar operations compute it from the total `T` and the diagonal sum `D`:
    ((-D) · 1 + (T - D) · 1) / 8192 · 0.1, the literals kept as their words. -/
def lossTail {F : FTy → Type} [FloatOps F] (T D : FVec F S0 .f32) : FVec F S0 .f32 :=
  mulf (Host.divf (addf (mulf (Host.negf D) (constant S0 .f32 0x3F800000#32))
      (mulf (subf T D) (constant S0 .f32 0x3F800000#32))) (constant S0 .f32 0x46000000#32))
    (constant S0 .f32 0x3DCCCCCD#32)

variable (X Y : Arr)

theorem partialSum_zero (c : Fin 8192) : partialSum X Y c 0 = 0 := by
  unfold partialSum
  apply Finset.sum_eq_zero
  intro r hr
  simp at hr

/-- Rows below the end of slab `k` are the rows below its start together with the slab's own 1024 rows. -/
private theorem filter_succ (k : ℕ) (hk : k < 8) :
    (Finset.univ.filter (fun r : Fin 8192 => r.val < 1024 * (k + 1))) =
      (Finset.univ.filter (fun r : Fin 8192 => r.val < 1024 * k)) ∪ Finset.univ.image (rowAt k hk) := by
  ext r
  simp only [Finset.mem_filter, Finset.mem_univ, true_and, Finset.mem_union, Finset.mem_image]
  constructor
  · intro h
    by_cases h' : r.val < 1024 * k
    · exact Or.inl h'
    · refine Or.inr ⟨⟨r.val - 1024 * k, by omega⟩, ?_⟩
      apply Fin.ext
      show 1024 * k + (r.val - 1024 * k) = r.val
      omega
  · rintro (h | ⟨q, rfl⟩)
    · omega
    · have := q.isLt
      show 1024 * k + q.val < 1024 * (k + 1)
      omega

private theorem filter_disj (k : ℕ) (hk : k < 8) :
    Disjoint (Finset.univ.filter (fun r : Fin 8192 => r.val < 1024 * k)) (Finset.univ.image (rowAt k hk)) := by
  rw [Finset.disjoint_left]
  intro r hr hr'
  simp only [Finset.mem_filter, Finset.mem_univ, true_and, Finset.mem_image] at hr hr'
  obtain ⟨q, rfl⟩ := hr'
  have : 1024 * k + q.val < 1024 * k := hr
  omega

private theorem rowAt_inj (k : ℕ) (hk : k < 8) : Function.Injective (rowAt k hk) := by
  intro a b h
  have h' : 1024 * k + a.val = 1024 * k + b.val := congrArg Fin.val h
  exact Fin.ext (by omega)

theorem partialSum_succ (c : Fin 8192) (k : ℕ) (hk : k < 8) :
    partialSum X Y c (k + 1) = partialSum X Y c k + ∑ r : Fin 1024, dist X Y (rowAt k hk r) c := by
  unfold partialSum
  rw [filter_succ k hk, Finset.sum_union (filter_disj k hk),
    Finset.sum_image (fun a _ b _ h => rowAt_inj k hk h)]

theorem partialSum_eight (c : Fin 8192) : partialSum X Y c 8 = colSum X Y c := by
  unfold partialSum colSum
  rw [Finset.filter_true_of_mem]
  intro r _
  have := r.isLt
  omega

/-- The sum over all index pairs of the square matrix of distances is `total`. -/
theorem sum_dist_eq_total :
    ∑ i : (⟨2, ![8192, 8192]⟩ : Shape).Idx, dist X Y (i 0) (i 1) = total X Y := by
  rw [sum_idx2]
  unfold total colSum
  exact Finset.sum_comm

/-- The sum over a one-row array holding the column sums is `total`. -/
theorem sum_cols_eq_total :
    ∑ j : (⟨2, ![1, 8192]⟩ : Shape).Idx, colSum X Y (j 1) = total X Y := by
  rw [sum_idx2, Fin.sum_univ_one]
  rfl

/-- The matrix of distances masked to its diagonal sums to `diagRef`. -/
theorem sum_diag_eq_diagRef :
    ∑ i : (⟨2, ![8192, 8192]⟩ : Shape).Idx, (if (i 0).val = (i 1).val then dist X Y (i 0) (i 1) else 0) = diagRef X Y := by
  rw [sum_idx2]
  unfold diagRef
  refine Finset.sum_congr rfl (fun a _ => ?_)
  have : ∀ b : Fin 8192, (if ((ix2 a b : (⟨2, ![8192, 8192]⟩ : Shape).Idx) 0).val = ((ix2 a b : (⟨2, ![8192, 8192]⟩ : Shape).Idx) 1).val
      then dist X Y ((ix2 a b : (⟨2, ![8192, 8192]⟩ : Shape).Idx) 0) ((ix2 a b : (⟨2, ![8192, 8192]⟩ : Shape).Idx) 1) else 0)
      = (if a = b then dist X Y a b else 0) := by
    intro b
    show (if a.val = b.val then dist X Y a b else 0) = _
    simp only [Fin.val_inj]
  rw [Finset.sum_congr rfl (fun b _ => this b), Finset.sum_ite_eq]
  simp

/-- A finite sum of reals, read in the extended reals, is the sum of the readings. -/
private theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The literal `two` denotes the real number 2. -/
private theorem two_eq : two = ((2 : ℝ) : EReal) := by
  show Ideal.ofBits .f32 0x40000000#32 = ((2 : ℝ) : EReal)
  simp [Ideal.ofBits, Ideal.ieee, -EReal.coe_mul]; norm_num

/-- Over real entries, ∑ₖ (x k - y k)² = (∑ₖ x k² + ∑ₖ y k²) - 2 · ∑ₖ x k · y k, read in the extended reals. -/
private theorem diag_arg (x y : SA.Idx → ℝ) (hx : ∀ i, X i = (x i : EReal)) (hy : ∀ i, Y i = (y i : EReal))
    (r : Fin 8192) :
    ∑ k : Fin 128, (X (ix2 r k) - Y (ix2 r k)) * (X (ix2 r k) - Y (ix2 r k))
      = (rowSq X r + rowSq Y r) - two * rowDot X Y r r := by
  unfold rowSq rowDot
  simp only [hx, hy, two_eq, ← EReal.coe_sub, ← EReal.coe_mul, coe_sum, ← EReal.coe_add]
  congr 1
  rw [Finset.mul_sum, ← Finset.sum_add_distrib, ← Finset.sum_sub_distrib]
  refine Finset.sum_congr rfl (fun k _ => ?_)
  ring

/-- Over finite entries the row-difference form of a diagonal distance is the expansion form. -/
theorem diagKer_eq_diagRef (hX : ∀ i, ∃ x : ℝ, X i = (x : EReal)) (hY : ∀ i, ∃ y : ℝ, Y i = (y : EReal)) :
    diagKer X Y = diagRef X Y := by
  choose x hx using hX
  choose y hy using hY
  unfold diagKer diagRef dist
  refine Finset.sum_congr rfl (fun r _ => ?_)
  rw [diag_arg X Y x y hx hy r]

end Cert.Spec

end
-- ==== Proof.Finite.lean ====
/-
  The precondition read: both argument arrays hold only finite numbers, so every entry is a real.
-/
import proofs.«418502_j8641474199881_3_alg».proof.Pre_finite_inputs
import proofs.«418502_j8641474199881_3_alg».proof.Proof.Gen.Pre_finite_inputs
import Idealize.ShloMosaic.PureOps.Ideal
import Idealize.ShloMosaic.Lib.ValueIdx
import Idealize.ShloMosaic.Lib.ReduceAll

noncomputable section

namespace Cert.Finite

open Idealize.ShloMosaic Idealize.ShloMosaic.ValueIdx

/-- An extended real whose absolute value max x (-x) is strictly below +∞ is neither infinity, so it is a real. -/
private theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- If the precondition's predicate is all ones on two arrays over the extended reals, every entry of both is a real:
    each `|x| < +∞` test excludes both infinities. -/
theorem finite_of_pre (X Y : FVec Ideal Cert.Pre_finite_inputs.S8192x128 .f32)
    (h : Cert.Pre_finite_inputs.fn (F := Ideal) X Y = fun _ => 1#1) :
    (∀ i, ∃ x : ℝ, X i = (x : EReal)) ∧ (∀ i, ∃ y : ℝ, Y i = (y : EReal)) := by
  -- the scalar shape has one index
  haveI : Subsingleton Cert.Pre_finite_inputs.S_.Idx := ⟨fun a b => funext fun d => d.elim0⟩
  have h0 := congrFun h ValueIdx.ix0
  dsimp only [Cert.Pre_finite_inputs.fn] at h0
  obtain ⟨h1, h2⟩ := IntOp.andi_eq_one.1 h0
  refine ⟨fun i => ?_, fun i => ?_⟩
  · have e := Host.reduce_andi_all _ _ _ _ _ h1 i
    exact real_of_abs_lt _ e
  · have e := Host.reduce_andi_all _ _ _ _ _ h2 i
    exact real_of_abs_lt _ e

end Cert.Finite

end
-- ==== Proof.KPieces.lean ====
/-
  What one grid step leaves in the output block and in the carried accumulator, as values: in both control cases
  both buffers end holding the step's one arithmetic term (`k0_pay2`) applied to the 1024 rows of the resident
  array the step reads, the current tile of the second array, and the accumulator it started from: the zero block
  (`k0_pay1`) when the step is the first of its column tile, what the step before left otherwise.
-/
import proofs.«418502_j8641474199881_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A load through the whole block of what the LAST of several stores through the whole block left reads that store's
    payload, whatever was stored before. -/
theorem readCov_cons_unit_zero {Val : EltTy → Type} [∀ e, Nonempty (Val e)] {S : Shape} {e : EltTy} {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- The 1024 rows of the resident first array that the step at grid coordinates `i` reads: rows 1024·i₁ onwards. -/
abbrev oblk (i : grid0.Coords) (x0 : Vec F S8192x128 .f32) : Vec F S1024x128 .f32 :=
  View.ld x0 (Rect.unit (k0_off1 i) S1024x128.size (Facts₀.k0_off1_inb i))

section
variable (c : Dev nD) (i : grid0.Coords) (a2 : Memref sig .tc .vmem S8192x128 .f32) (h2 : a2.IsWhole)
  (a3 : Memref sig .tc .vmem S1024x128 .f32) (h3 : a3.IsWhole) (a4 : Memref sig .tc .vmem S1x1024 .f32) (h4 : a4.IsWhole)
  (a5 : Memref sig .tc .vmem S1x1024 .f32) (h5 : a5.IsWhole)
  (x0 : Vec F S8192x128 .f32) (x1 : Vec F S1024x128 .f32) (xs0 : Vec F S1x1024 .f32)

/-- A later step of a column tile leaves the accumulator at the step's term over what it held. -/
theorem sout_B (hc : ¬cond0_0 i) :
    sout0_B_0 c i a2 h2 a3 h3 a4 h4 a5 h5 hc x0 x1 xs0 = k0_pay2 (oblk i x0) x1 xs0 := by
  unfold sout0_B_0
  rw [View.read_writes_eq_canon _ _ _ (scover0_B_0 c i a2 h2 a3 h3 a4 h4 a5 h5 hc x0 x1 xs0)]
  unfold kernelRun0_B
  dsimp only
  sl_unfold_run_names
  rw [View.canon_unit_zero hz]
  simp only [View.readAt_eq_ld, h2.read_unread, h3.read_unread, h5.read_unread, View.ld_unit_zero (S := S1024x128) hz,
    View.ld_unit_zero (S := S1x1024) hz]

/-- And the output block at the same: it stores the accumulator it has just written. -/
theorem out_B (hc : ¬cond0_0 i) :
    out0_B_2 c i a2 h2 a3 h3 a4 h4 a5 h5 hc x0 x1 xs0 = k0_pay2 (oblk i x0) x1 xs0 := by
  unfold out0_B_2
  rw [View.read_writes_eq_canon _ _ _ (cover0_B_2 c i a2 h2 a3 h3 a4 h4 a5 h5 hc x0 x1 xs0)]
  unfold kernelRun0_B
  dsimp only
  sl_unfold_run_names
  rw [View.canon_unit_zero hz, View.readCov_unit_zero (S := S1x1024) _ hz]
  simp only [View.readAt_eq_ld, h2.read_unread, h3.read_unread, h5.read_unread, View.ld_unit_zero (S := S1024x128) hz,
    View.ld_unit_zero (S := S1x1024) hz]

/-- The first step of a column tile zeroes the accumulator first, so it leaves the step's term over the zero block. -/
theorem sout_A (hc : cond0_0 i) :
    sout0_A_0 c i a2 h2 a3 h3 a4 h4 a5 h5 hc x0 x1 = k0_pay2 (oblk i x0) x1 k0_pay1 := by
  unfold sout0_A_0
  rw [View.read_writes_eq_canon _ _ _ (scover0_A_0 c i a2 h2 a3 h3 a4 h4 a5 h5 hc x0 x1)]
  unfold kernelRun0_A
  dsimp only
  sl_unfold_run_names
  rw [View.canon_cons_unit_zero (S := S1x1024) hz]
  simp only [View.readCov_unit_zero (S := S1x1024) _ hz, View.readAt_eq_ld, h2.read_unread, h3.read_unread,
    View.ld_unit_zero (S := S1024x128) hz, View.ld_unit_zero (S := S1x1024) hz]

theorem out_A (hc : cond0_0 i) :
    out0_A_2 c i a2 h2 a3 h3 a4 h4 a5 h5 hc x0 x1 = k0_pay2 (oblk i x0) x1 k0_pay1 := by
  unfold out0_A_2
  rw [View.read_writes_eq_canon _ _ _ (cover0_A_2 c i a2 h2 a3 h3 a4 h4 a5 h5 hc x0 x1)]
  unfold kernelRun0_A
  dsimp only
  sl_unfold_run_names
  rw [View.canon_unit_zero hz, readCov_cons_unit_zero (S := S1x1024) _ hz]
  simp only [View.readCov_unit_zero (S := S1x1024) _ hz, View.readAt_eq_ld, h2.read_unread, h3.read_unread,
    View.ld_unit_zero (S := S1024x128) hz, View.ld_unit_zero (S := S1x1024) hz]

end

end Cert.KernelIdeal.Pieces

end
-- ==== Proof.KRead.lean ====
/-
  The kernel program's arithmetic read over the extended reals, one index at a time: what one grid step adds to the
  running column sums, and the two scalars the operations after the grid compute.
-/
import proofs.«418502_j8641474199881_3_alg».proof.Proof.Gen.KernelIdeal.Skeleton
import proofs.«418502_j8641474199881_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KRead

open Idealize.ShloMosaic Idealize.ShloMosaic.ValueIdx
open Cert.KernelIdeal Cert.KernelIdeal.Facts₀

variable {F : FTy → Type} [FloatOps F]

/-- The sum of the one-row array of column sums, from the zero. -/
def totalOfK (P : FVec F S1x8192 .f32) : FVec F S_ .f32 :=
  Host.reduceAdd P (constant S_ .f32 0x00000000#32) reducesTo_S1x8192_S_d0_1 h_S_

/-- The sum over the rows of sqrt (max (∑ₖ (X r k - Y r k)²) 0), from the zero. -/
def diagOfK (X Y : FVec F S8192x128 .f32) : FVec F S_ .f32 :=
  Host.reduceAdd
    (Host.sqrt (maximumf
      (Host.reduceAdd (mulf (subf X Y) (subf X Y)) (constant S_ .f32 0x00000000#32) reducesTo_S8192x128_S8192_d1 h_S_)
      (broadcastInDim S8192 ![] bcast_S_S8192 (constant S_ .f32 0x00000000#32))))
    (constant S_ .f32 0x00000000#32) reducesTo_S8192_S_d0 h_S_

/-- The sum over the 128 lanes of a row of squares. -/
theorem rowSq_apply (x : FVec Ideal S1024x128 .f32) (h : S1024x128.Reduces [1] S1024) (r : Fin 1024) :
    multiReduction (F := Ideal) .add [1] S1024 (mulf x x) 0x00000000#32 h (.inl rfl) rfl (ix1 r)
      = ∑ k : Fin 128, x (ix2 r k) * x (ix2 r k) := by
  refine (Ideal.multiReduction_add_single _ _ h _ _ _).trans ?_
  refine Finset.sum_congr rfl fun k _ => ?_
  have e : h.lift (ix1 r) k = ix2 r k := by
    funext a; refine Fin.ext ?_
    match a with
    | ⟨0, _⟩ => rfl
    | ⟨1, _⟩ => rfl
  rw [e]; rfl

/-- The sum down a column of a square array. -/
theorem colSum_apply (x : FVec Ideal S1024x1024 .f32) (h : S1024x1024.Reduces [0] S1024) (n : Fin 1024) :
    multiReduction (F := Ideal) .add [0] S1024 x 0x00000000#32 h (.inl rfl) rfl (ix1 n)
      = ∑ r : Fin 1024, x (ix2 r n) := by
  refine (Ideal.multiReduction_add_single _ _ h _ _ _).trans ?_
  refine Finset.sum_congr rfl fun k _ => ?_
  have e : h.lift (ix1 n) k = ix2 k n := by
    funext a; refine Fin.ext ?_
    match a with
    | ⟨0, _⟩ => rfl
    | ⟨1, _⟩ => rfl
  rw [e]; rfl

/-- A vector of length a viewed as a column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over b columns reads, at (i, c), the column at i. -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

theorem lhs_dd_0 (j : S1024x1024.Idx) (k : Cert.KernelIdeal.dot_S1024x128_S128x1024_S1024x1024_1_0_0_1_n_n.contr.Idx) :
    (Cert.KernelIdeal.dot_S1024x128_S128x1024_S1024x1024_1_0_0_1_n_n.lhsIdx j k 0).val = (j 0).val := rfl

theorem lhs_dd_1 (j : S1024x1024.Idx) (k : Cert.KernelIdeal.dot_S1024x128_S128x1024_S1024x1024_1_0_0_1_n_n.contr.Idx) :
    (Cert.KernelIdeal.dot_S1024x128_S128x1024_S1024x1024_1_0_0_1_n_n.lhsIdx j k 1).val = (k ⟨0, by decide⟩).val := rfl

theorem rhs_dd_0 (j : S1024x1024.Idx) (k : Cert.KernelIdeal.dot_S1024x128_S128x1024_S1024x1024_1_0_0_1_n_n.contr.Idx) :
    (Cert.KernelIdeal.dot_S1024x128_S128x1024_S1024x1024_1_0_0_1_n_n.rhsIdx j k 0).val = (k ⟨0, by decide⟩).val := rfl

theorem rhs_dd_1 (j : S1024x1024.Idx) (k : Cert.KernelIdeal.dot_S1024x128_S128x1024_S1024x1024_1_0_0_1_n_n.contr.Idx) :
    (Cert.KernelIdeal.dot_S1024x128_S128x1024_S1024x1024_1_0_0_1_n_n.rhsIdx j k 1).val = (j 1).val := rfl

/-- The product of a row block with a transposed row block, into the zero accumulator, read at (r, n): the inner
    product over the 128 lanes. -/
theorem matmul_dd_apply {φ₁ φ₂ : FTy} (lhs : FVec Ideal S1024x128 φ₁) (rhs : FVec Ideal S128x1024 φ₂) (r n : Fin 1024) :
    matmul (F := Ideal) Cert.KernelIdeal.dot_S1024x128_S128x1024_S1024x1024_1_0_0_1_n_n none lhs rhs
        (constant (F := Ideal) S1024x1024 .f32 0x00000000#32) (ix2 r n)
      = ∑ k : Fin 128, lhs (ix2 r k) * rhs (ix2 k n) := by
  refine (Ideal.matmul_constant_zero_apply Cert.KernelIdeal.dot_S1024x128_S128x1024_S1024x1024_1_0_0_1_n_n none lhs rhs (ix2 r n)).trans ?_
  rw [← Equiv.sum_comp (contrEquiv1 Cert.KernelIdeal.dot_S1024x128_S128x1024_S1024x1024_1_0_0_1_n_n 128 rfl rfl).symm]
  refine Finset.sum_congr rfl fun k _ => ?_
  have hk := contrEquiv1_symm_val Cert.KernelIdeal.dot_S1024x128_S128x1024_S1024x1024_1_0_0_1_n_n 128 rfl rfl k
  have hl : Cert.KernelIdeal.dot_S1024x128_S128x1024_S1024x1024_1_0_0_1_n_n.lhsIdx (ix2 r n)
      ((contrEquiv1 Cert.KernelIdeal.dot_S1024x128_S128x1024_S1024x1024_1_0_0_1_n_n 128 rfl rfl).symm k) = ix2 r k := by
    funext a; refine Fin.ext ?_
    match a with
    | ⟨0, _⟩ => exact lhs_dd_0 _ _
    | ⟨1, _⟩ => exact (lhs_dd_1 _ _).trans hk
  have hr : Cert.KernelIdeal.dot_S1024x128_S128x1024_S1024x1024_1_0_0_1_n_n.rhsIdx (ix2 r n)
      ((contrEquiv1 Cert.KernelIdeal.dot_S1024x128_S128x1024_S1024x1024_1_0_0_1_n_n 128 rfl rfl).symm k) = ix2 k n := by
    funext a; refine Fin.ext ?_
    match a with
    | ⟨0, _⟩ => exact (rhs_dd_0 _ _).trans hk
    | ⟨1, _⟩ => exact rhs_dd_1 _ _
  rw [hl, hr]

/-- The squared norms of the rows, kept as a column and spread over the columns: at (r, n) the squared norm of row r. -/
theorem sqCol_apply (x : FVec Ideal S1024x128 .f32) (r n : Fin 1024) :
    broadcastTo S1024x1024
        (shapeCast S1024x1 (multiReduction (F := Ideal) .add [1] S1024 (mulf x x) 0x00000000#32 reduces_S1024x128_S1024 (.inl rfl) rfl)
          shapeCasts_S1024_S1024x1)
        broadcasts_S1024x1_S1024x1024 (ix2 r n)
      = ∑ k : Fin 128, x (ix2 r k) * x (ix2 r k) :=
  (broadcastTo_a1_ab_apply _ _ r n).trans
    ((shapeCast_a_a1_apply _ _ r 0).trans (rowSq_apply x _ r))

/-- The squared norms of the rows, turned into a row and spread over the rows: at (r, n) the squared norm of row n. -/
theorem sqRow_apply (x : FVec Ideal S1024x128 .f32) (r n : Fin 1024) :
    broadcastTo S1024x1024
        (transpose S1x1024 [1, 0]
          (shapeCast S1024x1 (multiReduction (F := Ideal) .add [1] S1024 (mulf x x) 0x00000000#32 reduces_S1024x128_S1024 (.inl rfl) rfl)
            shapeCasts_S1024_S1024x1)
          transposes_S1024x1_p1_0_S1x1024)
        broadcasts_S1x1024_S1024x1024 (ix2 r n)
      = ∑ k : Fin 128, x (ix2 n k) * x (ix2 n k) :=
  (broadcastTo_1b_ab_apply _ _ r n).trans
    ((transpose_ix2_apply _ _ (0 : Fin 1) n).trans
      ((shapeCast_a_a1_apply _ _ n 0).trans (rowSq_apply x _ n)))

/-- The row block times the transposed row block, both narrowed (the identity on extended reals), at (r, n): the inner
    product of row r of the first with row n of the second. -/
theorem dotT_apply (o t : FVec Ideal S1024x128 .f32) (r n : Fin 1024) :
    matmul (F := Ideal) Cert.KernelIdeal.dot_S1024x128_S128x1024_S1024x1024_1_0_0_1_n_n none
        (truncf .bf16 o bitsLt_bf16_f32)
        (transpose S128x1024 [1, 0] (truncf .bf16 t bitsLt_bf16_f32) transposes_S1024x128_p1_0_S128x1024)
        (constant (F := Ideal) S1024x1024 .f32 0x00000000#32) (ix2 r n)
      = ∑ k : Fin 128, o (ix2 r k) * t (ix2 n k) := by
  refine (matmul_dd_apply _ _ r n).trans ?_
  refine Finset.sum_congr rfl fun k _ => ?_
  rw [transpose_ix2_apply _ _ k n]
  rfl

/-- The block the first grid step of a column tile stores first: zeros. -/
theorem pay1_apply (j : S1x1024.Idx) : Gen.k0_pay1 (F := Ideal) j = 0 := by
  unfold Gen.k0_pay1
  refine (congrFun (shapeCast_self _ _) j).trans ?_
  exact Ideal.ofBits_zero_f32

/-- One grid step at column `n` of the tile: the accumulator plus the sum, over the 1024 rows `r` of the row block `o`, of
    sqrt (max ((|o r|² + |t n|²) - 2 · ⟨o r, t n⟩) 0). -/
theorem pay2_apply (o t : Vec Ideal S1024x128 .f32) (acc : Vec Ideal S1x1024 .f32) (n : Fin 1024) :
    Gen.k0_pay2 (F := Ideal) o t acc (ix2 0 n)
      = acc (ix2 0 n) + ∑ r : Fin 1024, Ideal.sqrt (max
          (((∑ k : Fin 128, o (ix2 r k) * o (ix2 r k)) + ∑ k : Fin 128, t (ix2 n k) * t (ix2 n k))
            - Cert.Spec.two * ∑ k : Fin 128, o (ix2 r k) * t (ix2 n k)) 0) := by
  unfold Gen.k0_pay2
  -- the last cast keeps the shape; the accumulator is added pointwise
  refine (congrFun (shapeCast_self _ _) _).trans ?_
  refine (addf_apply _ _ _).trans ?_
  refine congrArg (acc (ix2 0 n) + ·) ?_
  -- the column sums, stored as one row
  refine (shapeCast_a_1a_apply _ _ (0 : Fin 1) n).trans ?_
  refine (colSum_apply _ _ n).trans ?_
  refine Finset.sum_congr rfl fun r _ => ?_
  -- one distance: sqrt (max ((|o r|² + |t n|²) - 2 · ⟨o r, t n⟩) 0), operation by operation
  refine congrArg Ideal.sqrt ?_
  refine congrArg₂ max ?_ Ideal.ofBits_zero_f32
  refine congrArg₂ (· - ·) (congrArg₂ (· + ·) (sqCol_apply o r n) (sqRow_apply t r n)) ?_
  exact congrArg (Cert.Spec.two * ·) (dotT_apply o t r n)

/-- A sum over the indices of a vector is the sum over its coordinate. -/
theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    fun i => congrArg f (eq_ix1 i)

theorem totalOfK_eq (P : FVec Ideal S1x8192 .f32) (X Y : FVec Ideal S8192x128 .f32)
    (hP : ∀ j : S1x8192.Idx, P j = Cert.Spec.colSum X Y (j 1)) :
    totalOfK (F := Ideal) P = fun _ => Cert.Spec.total X Y := by
  funext j
  unfold totalOfK Host.reduceAdd
  -- the reduce into a scalar is the zero plus the sum over every index of the one-row array
  refine (Ideal.hostReduceAdd_total reducesTo_S1x8192_S_d0_1 (fun b => b.elim0) P _ j).trans ?_
  refine (congrArg (· + ∑ i : S1x8192.Idx, P i) Ideal.ofBits_zero_f32).trans ?_
  rw [zero_add, Finset.sum_congr rfl fun i _ => hP i]
  exact Cert.Spec.sum_cols_eq_total X Y

theorem diagOfK_eq (X Y : FVec Ideal S8192x128 .f32) :
    diagOfK (F := Ideal) X Y = fun _ => Cert.Spec.diagKer X Y := by
  funext j
  unfold diagOfK Cert.Spec.diagKer
  -- the outer reduce into a scalar: the zero plus the sum over the 8192 rows
  refine (Ideal.hostReduceAdd_total reducesTo_S8192_S_d0 (fun b => b.elim0) _ _ j).trans ?_
  refine (congrArg (· + _) Ideal.ofBits_zero_f32).trans ?_
  rw [zero_add, sum_idx1]
  refine Finset.sum_congr rfl fun r _ => ?_
  -- one row: sqrt (max (∑ₖ (X r k - Y r k)²) 0)
  refine congrArg Ideal.sqrt (congrArg₂ max ?_ Ideal.ofBits_zero_f32)
  -- the inner reduce along the 128 lanes: the zero plus the lane sum
  have hred : S8192x128.Reduces [1] S8192 := by decide
  refine (Ideal.hostReduceAdd_single reducesTo_S8192x128_S8192_d1 hred _ _ (ix1 r)).trans ?_
  refine (congrArg (· + _) Ideal.ofBits_zero_f32).trans ?_
  rw [zero_add]
  refine Finset.sum_congr rfl fun k _ => ?_
  have e : hred.lift (ix1 r) k = ix2 r k := by
    funext a; refine Fin.ext ?_
    match a with
    | ⟨0, _⟩ => rfl
    | ⟨1, _⟩ => rfl
  rw [e]; rfl

end Cert.KernelIdeal.KRead

end
-- ==== Proof.KAcc.lean ====
/-
  The accumulation over the grid, as values. Grid point t = 8·j + i handles column tile j (columns 1024·j …) and row
  slab i (rows 1024·i …): it adds, to each of the tile's 1024 running column sums, the distances of that slab's 1024
  rows to the column's row of the second array; the first step of a tile starts from zero. So after point t the
  accumulator (and the output block, which is stored from it) holds, at column n of the tile, the distances of column
  1024·j + n summed over the first i + 1 slabs of rows: by induction on the point.
-/
import proofs.«418502_j8641474199881_3_alg».proof.Proof.KPieces
import proofs.«418502_j8641474199881_3_alg».proof.Proof.KRead
import proofs.«418502_j8641474199881_3_alg».proof.Proof.Spec
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.KernelIdeal.Pieces

section generic

variable {F : FTy → Type} [FloatOps F]
variable (m : (ℓ : Loc nD τ sig) → Buf (Elt F) ℓ)

/-- The two argument arrays as the grid finds them, and the blocks of them a point is handed. -/
abbrev xarr (c : Dev nD) : Vec F S8192x128 .f32 := V m c main_arg0
abbrev yarr (c : Dev nD) : Vec F S8192x128 .f32 := V m c main_arg1
abbrev xblk (c : Dev nD) (t : Fin cfg0.N) : Vec F S8192x128 .f32 := iblk m c 0 t
abbrev yblk (c : Dev nD) (t : Fin cfg0.N) : Vec F S1024x128 .f32 := iblk m c 1 t

theorem N64 : cfg0.N = 64 := N_0

/-- The block indices over the grid: the first array is one block; the second array's block is the point's tile. -/
theorem idx_facts : ∀ t : Fin cfg0.N, win0_0.index t 0 = 0 ∧ win0_0.index t 1 = 0 ∧ win0_1.index t 0 = t.val / 8 ∧ win0_1.index t 1 = 0
    ∧ win0_2.index t 0 = 0 ∧ win0_2.index t 1 = t.val / 8 :=
  (by decide +kernel : ∀ t : Fin grid0.N, win0_0.index t 0 = 0 ∧ win0_0.index t 1 = 0 ∧ win0_1.index t 0 = t.val / 8 ∧ win0_1.index t 1 = 0
    ∧ win0_2.index t 0 = 0 ∧ win0_2.index t 1 = t.val / 8)

/-- The rows a point reads of the resident array start at 1024 times its slab number. -/
theorem off_facts : ∀ t : Fin cfg0.N, k0_off1 (grid0.coords t) 0 = 1024 * (t.val % 8) ∧ k0_off1 (grid0.coords t) 1 = 0 :=
  (by decide +kernel : ∀ t : Fin grid0.N, k0_off1 (grid0.coords t) 0 = 1024 * (t.val % 8) ∧ k0_off1 (grid0.coords t) 1 = 0)

/-- The first array's block is the whole array. -/
theorem xblk_eq (c : Dev nD) (t : Fin cfg0.N) : xblk m c t = xarr m c := by
  funext j
  unfold xblk xarr iblk
  rw [View.read_apply]
  show V m c main_arg0 _ = V m c main_arg0 j
  congr 1
  funext a
  apply Fin.ext
  match a with
  | ⟨0, _⟩ => show win0_0.index t 0 * 8192 + 1 * (j 0).val = (j 0).val; rw [(idx_facts t).1]; omega
  | ⟨1, _⟩ => show win0_0.index t 1 * 128 + 1 * (j 1).val = (j 1).val; rw [(idx_facts t).2.1]; omega

/-- Row n of the second array's block at point t is row 1024·(t / 8) + n of the array. -/
theorem yblk_apply (c : Dev nD) (t : Fin cfg0.N) (n : Fin 1024) (k : Fin 128) (h : 1024 * (t.val / 8) + n.val < 8192) :
    yblk m c t (ix2 n k) = yarr m c (ix2 ⟨1024 * (t.val / 8) + n.val, h⟩ k) := by
  unfold yblk yarr iblk
  rw [View.read_apply]
  show V m c main_arg1 _ = V m c main_arg1 _
  congr 1
  funext a
  apply Fin.ext
  match a with
  | ⟨0, _⟩ => show win0_1.index t 0 * 1024 + 1 * n.val = 1024 * (t.val / 8) + n.val; rw [(idx_facts t).2.2.1]; omega
  | ⟨1, _⟩ => show win0_1.index t 1 * 128 + 1 * k.val = k.val; rw [(idx_facts t).2.2.2.1]; omega

/-- Row r of the slab a point reads is row 1024·(t % 8) + r of the resident array. -/
theorem oblk_apply (t : Fin cfg0.N) (x0 : Vec F S8192x128 .f32) (r : Fin 1024) (k : Fin 128) (h : 1024 * (t.val % 8) + r.val < 8192) :
    oblk (grid0.coords t) x0 (ix2 r k) = x0 (ix2 ⟨1024 * (t.val % 8) + r.val, h⟩ k) := by
  show x0 _ = x0 _
  congr 1
  funext a
  apply Fin.ext
  match a with
  | ⟨0, _⟩ => show k0_off1 (grid0.coords t) 0 + 1 * r.val = 1024 * (t.val % 8) + r.val; rw [(off_facts t).1]; omega
  | ⟨1, _⟩ => show k0_off1 (grid0.coords t) 1 + 1 * k.val = k.val; rw [(off_facts t).2]; omega

/-- The accumulator a point starts from: zero at the first step of a column tile, else what the point before left. -/
def accBefore (c : Dev nD) (t : Fin cfg0.N) : Vec F S1x1024 .f32 :=
  if t.val % 8 = 0 then k0_pay1 else (outsAt0 m c (t.val - 1) (Nat.lt_of_le_of_lt (Nat.sub_le _ _) t.isLt)).2

/-- After a point, the output block and the accumulator both hold the step's term over what the point started from. -/
theorem outsAt_step (c : Dev nD) (t : Fin cfg0.N) :
    outsAt0 m c t.val t.isLt
      = (k0_pay2 (oblk (grid0.coords t) (xblk m c t)) (yblk m c t) (accBefore m c t),
         k0_pay2 (oblk (grid0.coords t) (xblk m c t)) (yblk m c t) (accBefore m c t)) := by
  by_cases h0 : t.val % 8 = 0
  · rw [outsAt0_A m c t h0, out_A, sout_A]
    unfold accBefore; rw [if_pos h0]
  · rw [outsAt0_B m c t h0, out_B, sout_B]
    unfold accBefore; rw [if_neg h0]

end generic

section ideal

variable (m : (ℓ : Loc nD τ sig) → Buf (Elt Ideal) ℓ)

/-- The column of the arrays that column n of point t's tile is. -/
def col (t : Fin cfg0.N) (n : Fin 1024) : Fin 8192 :=
  ⟨1024 * (t.val / 8) + n.val, by have := t.isLt; have := N64; have := n.isLt; omega⟩

theorem slab_lt (t : Fin cfg0.N) : t.val % 8 < 8 := Nat.mod_lt _ (by decide)

/-- One step at column n of the tile: the accumulator plus the distances of the slab's 1024 rows to that column. -/
theorem step_apply (c : Dev nD) (t : Fin cfg0.N) (acc : Vec Ideal S1x1024 .f32) (n : Fin 1024) :
    k0_pay2 (F := Ideal) (oblk (grid0.coords t) (xblk m c t)) (yblk m c t) acc (ix2 0 n)
      = acc (ix2 0 n) + ∑ r : Fin 1024,
          Cert.Spec.dist (xarr m c) (yarr m c) (Cert.Spec.rowAt (t.val % 8) (slab_lt t) r) (col t n) := by
  have hr : ∀ r : Fin 1024, 1024 * (t.val % 8) + r.val < 8192 := fun r => by
    have := slab_lt t; have := r.isLt; omega
  have hn : 1024 * (t.val / 8) + n.val < 8192 := (col t n).isLt
  have ho : ∀ (r : Fin 1024) (k : Fin 128), oblk (grid0.coords t) (xblk m c t) (ix2 r k)
      = xarr m c (ix2 (Cert.Spec.rowAt (t.val % 8) (slab_lt t) r) k) :=
    fun r k => (oblk_apply t (xblk m c t) r k (hr r)).trans (congrFun (xblk_eq m c t) _)
  have hy : ∀ k : Fin 128, yblk m c t (ix2 n k) = yarr m c (ix2 (col t n) k) := fun k => yblk_apply m c t n k hn
  refine (Cert.KernelIdeal.KRead.pay2_apply (oblk (grid0.coords t) (xblk m c t)) (yblk m c t) acc n).trans ?_
  refine congrArg (acc (ix2 0 n) + ·) (Finset.sum_congr rfl fun r _ => ?_)
  unfold Cert.Spec.dist Cert.Spec.rowSq Cert.Spec.rowDot
  simp only [ho, hy]

/-- If a point starts from the column's sum over the slabs before its own, it ends at the sum including its own. -/
theorem acc_of_before (c : Dev nD) (t : Fin cfg0.N) (n : Fin 1024)
    (hb : accBefore m c t (ix2 0 n) = Cert.Spec.partialSum (xarr m c) (yarr m c) (col t n) (t.val % 8)) :
    (outsAt0 m c t.val t.isLt).2 (ix2 0 n) = Cert.Spec.partialSum (xarr m c) (yarr m c) (col t n) (t.val % 8 + 1)
    ∧ (outsAt0 m c t.val t.isLt).1 (ix2 0 n) = Cert.Spec.partialSum (xarr m c) (yarr m c) (col t n) (t.val % 8 + 1) := by
  rw [outsAt_step m c t]
  dsimp only
  rw [step_apply, hb, ← Cert.Spec.partialSum_succ _ _ _ _ (slab_lt t)]
  exact ⟨rfl, rfl⟩

/-- After point k the accumulator holds, at column n of its tile, that column's distances summed over the first
    k % 8 + 1 slabs of rows: by induction on the point. -/
theorem acc_inv (c : Dev nD) : ∀ (k : ℕ) (hk : k < cfg0.N) (n : Fin 1024),
    (outsAt0 m c k hk).2 (ix2 0 n) = Cert.Spec.partialSum (xarr m c) (yarr m c) (col ⟨k, hk⟩ n) (k % 8 + 1)
  | 0, hk, n => by
    refine (acc_of_before m c ⟨0, hk⟩ n ?_).1
    unfold accBefore
    rw [if_pos (show (⟨0, hk⟩ : Fin cfg0.N).val % 8 = 0 from rfl), Cert.KernelIdeal.KRead.pay1_apply]
    exact (Cert.Spec.partialSum_zero _ _ _).symm
  | k + 1, hk, n => by
    refine (acc_of_before m c ⟨k + 1, hk⟩ n ?_).1
    unfold accBefore
    by_cases h0 : (k + 1) % 8 = 0
    · rw [if_pos h0, Cert.KernelIdeal.KRead.pay1_apply]
      show (0 : EReal) = Cert.Spec.partialSum _ _ _ ((k + 1) % 8)
      rw [h0, Cert.Spec.partialSum_zero]
    · rw [if_neg h0]
      show (outsAt0 m c k (Nat.lt_of_succ_lt hk)).2 (ix2 0 n) = Cert.Spec.partialSum _ _ _ ((k + 1) % 8)
      rw [acc_inv c k (Nat.lt_of_succ_lt hk) n]
      have e1 : col ⟨k, Nat.lt_of_succ_lt hk⟩ n = col ⟨k + 1, hk⟩ n := Fin.ext (by unfold col; dsimp only; omega)
      have e2 : k % 8 + 1 = (k + 1) % 8 := by omega
      rw [e1, e2]

/-- The same of the output block, which every step stores from the accumulator. -/
theorem out_inv (c : Dev nD) (t : Fin cfg0.N) (n : Fin 1024) :
    (outsAt0 m c t.val t.isLt).1 (ix2 0 n) = Cert.Spec.partialSum (xarr m c) (yarr m c) (col t n) (t.val % 8 + 1) := by
  rw [outsAt_step m c t]
  dsimp only
  have h := acc_inv m c t.val t.isLt n
  rw [outsAt_step m c t] at h
  exact h

end ideal

end Cert.KernelIdeal.Acc

end
-- ==== Proof.KFinal.lean ====
/-
  The grid's one-row result array, and the program's result. The output block of column tile j is written back once,
  after the tile's last step (points 8·j + 7), when it holds each column's distances summed over all eight slabs of
  rows: the column sums. The eight written blocks tile the array, so the array ends holding the column sums of all
  8192 columns. The operations after the grid sum that array, compute the diagonal sum from the row differences of
  the two argument arrays, and combine the two scalars into the loss.
-/
import proofs.«418502_j8641474199881_3_alg».proof.Proof.KAcc
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Acc

variable (m : (ℓ : Loc nD τ sig) → Buf (Elt Ideal) ℓ) (ρ : Dev nD → PrngReg)

/-- The column sums of the matrix of distances, as a one-row array. -/
def colSums (c : Dev nD) : Vec Ideal S1x8192 .f32 := fun j => Cert.Spec.colSum (xarr m c) (yarr m c) (j 1)

/-- What a tile's last point writes back is the tile's block of the column sums. -/
theorem flushed_eq (c : Dev nD) (t : Fin cfg0.N) (hf : (cfg0.win 2).flush t = true) :
    (dats m 0 c).flushed 2 t = ((cfg0.win 2).blk t).view.read (Elt Ideal) (colSums m c) := by
  have h7 : t.val % 8 = 7 := (flush0_2 t).mp hf
  show (cfg0.win 2).cut (grid0.coords t) ((dats m 0 c).after 2 t) = _
  rw [after0_2]
  funext j
  obtain ⟨p, q, rfl⟩ : ∃ (p : Fin 1) (q : Fin 1024), j = ix2 p q := ⟨j 0, j 1, eq_ix2 j⟩
  obtain rfl : p = 0 := Subsingleton.elim _ _
  show (outsAt0 m c t.val t.isLt).1 (ix2 0 q) = colSums m c (((cfg0.win 2).blk t).view.emb (ix2 0 q))
  refine (out_inv m c t q).trans ?_
  rw [h7]
  refine (Cert.Spec.partialSum_eight _ _ _).trans ?_
  unfold colSums
  show Cert.Spec.colSum _ _ (col t q) = Cert.Spec.colSum _ _ ((((cfg0.win 2).blk t).view.emb (ix2 0 q)) 1)
  congr 1
  apply Fin.ext
  show 1024 * (t.val / 8) + q.val = win0_2.index t 1 * 1024 + 1 * q.val
  rw [(idx_facts t).2.2.2.2.2]; omega

/-- An index of the array is in a point's block iff each coordinate is in the block's range on its axis. -/
theorem mem_blk (t : Fin cfg0.N) (i : S1x8192.Idx) :
    i ∈ ((cfg0.win 2).blk t).view.set ↔ ∀ a : Fin 2, win0_2.index t a * S1x1024.size a ≤ (i a).val
      ∧ (i a).val < win0_2.index t a * S1x1024.size a + S1x1024.size a := by
  show i ∈ ((View.whole main_v0).slice (win0_2.rect t)).set ↔ _
  rw [View.set_slice_whole, Rect.mem_set_unit]
  exact Iff.rfl

/-- The array after the grid: the column sums (column c is covered by the last point of tile c / 1024). -/
theorem final (c : Dev nD) : (dats m 0 c).arrAt 2 cfg0.N = colSums m c :=
  (dats m 0 c).arrAt_eq_of_cover 2 (colSums m c) (flushed_eq m c) fun i => by
    have hi0 : (i 0).val < 1 := (i 0).isLt
    have hi1 : (i 1).val < 8192 := (i 1).isLt
    have hN : cfg0.N = 64 := N64
    have ht : 8 * ((i 1).val / 1024) + 7 < cfg0.N := by omega
    refine ⟨⟨8 * ((i 1).val / 1024) + 7, ht⟩, (flush0_2 _).mpr (by show (8 * ((i 1).val / 1024) + 7) % 8 = 7; omega), ?_⟩
    rw [mem_blk]
    intro a
    obtain ⟨-, -, -, -, e4, e5⟩ := idx_facts ⟨8 * ((i 1).val / 1024) + 7, ht⟩
    match a with
    | ⟨0, _⟩ =>
      show win0_2.index ⟨8 * ((i 1).val / 1024) + 7, ht⟩ 0 * 1 ≤ (i 0).val ∧ (i 0).val < win0_2.index ⟨8 * ((i 1).val / 1024) + 7, ht⟩ 0 * 1 + 1
      rw [e4]; omega
    | ⟨1, _⟩ =>
      show win0_2.index ⟨8 * ((i 1).val / 1024) + 7, ht⟩ 1 * 1024 ≤ (i 1).val ∧ (i 1).val < win0_2.index ⟨8 * ((i 1).val / 1024) + 7, ht⟩ 1 * 1024 + 1024
      rw [e5]
      show (8 * ((i 1).val / 1024) + 7) / 8 * 1024 ≤ (i 1).val ∧ (i 1).val < (8 * ((i 1).val / 1024) + 7) / 8 * 1024 + 1024
      omega

/-- The program's result: the loss of the sum of the column sums and of the diagonal sum from the row differences. -/
theorem result_eq (c : Dev nD) :
    Pipeline.afterTail₀ cfgs (dats m) 0 (V0 m) [hostOps1] c main_v15
      = Cert.Spec.lossTail (Cert.KernelIdeal.KRead.totalOfK (colSums m c))
          (Cert.KernelIdeal.KRead.diagOfK (xarr m c) (yarr m c)) := by
  unfold Pipeline.afterTail₀
  show StableHlo.after hostOps1 _ (Proc.devRef .tc main_v15) = _
  after_results
  have e0 : Pipeline.withArrays (cfgs 0).spec c (V0 m c) (fun w => (dats m 0 c).arrAt w (cfgs 0).N) (Proc.devRef .tc main_arg0)
      = xarr m c :=
    (Pipeline.withArrays_arr spec0 launch0.win.arr_inj c _ _ 0).trans (((dats m 0 c).arrAt_in 0 rfl _).trans (A_eq m c 0))
  have e1 : Pipeline.withArrays (cfgs 0).spec c (V0 m c) (fun w => (dats m 0 c).arrAt w (cfgs 0).N) (Proc.devRef .tc main_arg1)
      = yarr m c :=
    (Pipeline.withArrays_arr spec0 launch0.win.arr_inj c _ _ 1).trans (((dats m 0 c).arrAt_in 1 rfl _).trans (A_eq m c 1))
  have e2 : Pipeline.withArrays (cfgs 0).spec c (V0 m c) (fun w => (dats m 0 c).arrAt w (cfgs 0).N) (Proc.devRef .tc main_v0)
      = colSums m c :=
    (Pipeline.withArrays_arr spec0 launch0.win.arr_inj c _ _ 2).trans (final m c)
  rw [e0, e1, e2]
  rfl

/-- Every weakly fair execution of the program terminates with its result at that loss and the arguments unchanged. -/
theorem run : θ_run defs (onTc (τ := τ) (main (F := Ideal))) ⟨m, fun _ => 0, ρ⟩ fun r => ∀ c : Dev nD,
      r.2.mem ((c.tc : Thread nD τ).loc main_v15)
          = Cert.Spec.lossTail (Cert.KernelIdeal.KRead.totalOfK (colSums m c))
              (Cert.KernelIdeal.KRead.diagOfK (xarr m c) (yarr m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v15 (by decide)).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Final

end
-- ==== Proof.RefRun.lean ====
/-
  The run of the reference program, read back: its result is the loss (`Cert.Spec.lossTail`) of two scalars, the sum of
  the whole matrix of distances and the sum of that matrix masked to its diagonal, each as the composition of the
  program's own operations applied to the two argument arrays.
-/
import proofs.«418502_j8641474199881_3_alg».proof.Proof.Gen.ReferenceIdeal
import proofs.«418502_j8641474199881_3_alg».proof.Proof.Spec
import Idealize.ShloMosaic.Lib.StableHlo.Run
import Idealize.ShloMosaic.Lib.Tactic

noncomputable section

namespace Cert.ReferenceIdeal.RefRun

open Idealize.ShloMosaic Idealize.ShloMosaic.TcCoe Idealize.SL.Sem Idealize.ShloMosaic.StableHlo
open Cert.ReferenceIdeal Cert.ReferenceIdeal.Facts₀

variable {F : FTy → Type} [FloatOps F]

/-- The squared norms of the rows of an argument array. -/
def sqNorms (X : FVec F S8192x128 .f32) : FVec F S8192 .f32 :=
  Host.reduceAdd (mulf X X) (constant S_ .f32 0x00000000#32) reducesTo_S8192x128_S8192_d1 h_S_

/-- The 8192 × 8192 matrix of distances: (|X r|² + |Y c|²) - 2 · (X Yᵀ) r c, clamped at zero, under the square root. -/
def dMat (X Y : FVec F S8192x128 .f32) : FVec F S8192x8192 .f32 :=
  Host.sqrt (maximumf
    (subf
      (addf
        (broadcastInDim S8192x8192 ![0, 1] bcast_S8192x1_S8192x8192_0_1 (broadcastInDim S8192x1 ![0] bcast_S8192_S8192x1_0 (sqNorms X)))
        (broadcastInDim S8192x8192 ![0, 1] bcast_S1x8192_S8192x8192_0_1 (broadcastInDim S1x8192 ![1] bcast_S8192_S1x8192_1 (sqNorms Y))))
      (mulf (broadcastInDim S8192x8192 ![] bcast_S_S8192x8192 (constant S_ .f32 0x40000000#32))
        (Host.dotGeneral dot_S8192x128_S128x8192_S8192x8192_1_0_0_1_n_n none X
          (transpose S128x8192 [1, 0] Y transposes_S8192x128_S128x8192_1_0))))
    (broadcastInDim S8192x8192 ![] bcast_S_S8192x8192 (constant S_ .f32 0x00000000#32)))

/-- The diagonal's mask: row number (plus the word 0) equal to column number. -/
def diagMask : IVec S8192x8192 1 :=
  cmpi .eq (addi (iotaInDim S8192x8192 32 0) (broadcastInDim S8192x8192 ![] bcast_S_S8192x8192 (constantI S_ 32 0#32)))
    (iotaInDim S8192x8192 32 1)

/-- The sum of all distances, from the zero. -/
def totalOf (X Y : FVec F S8192x128 .f32) : FVec F S_ .f32 :=
  Host.reduceAdd (dMat X Y) (constant S_ .f32 0x00000000#32) reducesTo_S8192x8192_S_d0_1 h_S_

/-- The sum of the matrix of distances with everything off the diagonal replaced by zero, from the zero. -/
def diagOf (X Y : FVec F S8192x128 .f32) : FVec F S_ .f32 :=
  Host.reduceAdd
    (select diagMask (dMat X Y) (broadcastInDim S8192x8192 ![] bcast_S_S8192x8192 (constant S_ .f32 0x00000000#32)))
    (constant S_ .f32 0x00000000#32) reducesTo_S8192x8192_S_d0_1 h_S_

/-- The program's 45 operations in order: the 21 before the call, the called function's ten with the function it calls
    in turn (one selection) listed in place over the call's buffers, and the 13 after. -/
abbrev ops : List (HloOp τ sig (Elt F)) :=
  [ binary main_arg0 main_arg0 main_v0 (mulf : (⟨S8192x128, .f32⟩ : BufTy).Contents (Elt F) → (⟨S8192x128, .f32⟩ : BufTy).Contents (Elt F) → (⟨S8192x128, .f32⟩ : BufTy).Contents (Elt F)),
    nullary main_cst (constant S_ .f32 0x00000000#32),
    binary main_v0 main_cst main_v1 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    binary main_arg1 main_arg1 main_v2 (mulf : (⟨S8192x128, .f32⟩ : BufTy).Contents (Elt F) → (⟨S8192x128, .f32⟩ : BufTy).Contents (Elt F) → (⟨S8192x128, .f32⟩ : BufTy).Contents (Elt F)),
    nullary main_cst_0 (constant S_ .f32 0x00000000#32),
    binary main_v2 main_cst_0 main_v3 ((fun x v => Host.reduceAdd x v reducesTo_S8192x128_S8192_d1 h_S_) : (⟨S8192x128, .f32⟩ : BufTy).Contents (Elt F) → (⟨S_, .f32⟩ : BufTy).Contents (Elt F) → (⟨S8192, .f32⟩ : BufTy).Contents (Elt F)),
    unary main_v1 main_v4 (broadcastInDim S8192x1 ![0] bcast_S8192_S8192x1_0 : (⟨S8192, .f32⟩ : BufTy).Contents (Elt F) → (⟨S8192x1, .f32⟩ : BufTy).Contents (Elt F)),
    unary main_v3 main_v5 (broadcastInDim S1x8192 ![1] bcast_S8192_S1x8192_1 : (⟨S8192, .f32⟩ : BufTy).Contents (Elt F) → (⟨S1x8192, .f32⟩ : BufTy).Contents (Elt F)),
    unary main_v4 main_v6 (broadcastInDim S8192x8192 ![0, 1] bcast_S8192x1_S8192x8192_0_1 : (⟨S8192x1, .f32⟩ : BufTy).Contents (Elt F) → (⟨S8192x8192, .f32⟩ : BufTy).Contents (Elt F)),
    unary main_v5 main_v7 (broadcastInDim S8192x8192 ![0, 1] bcast_S1x8192_S8192x8192_0_1 : (⟨S1x8192, .f32⟩ : BufTy).Contents (Elt F) → (⟨S8192x8192, .f32⟩ : BufTy).Contents (Elt F)),
    binary main_v6 main_v7 main_v8 (addf : (⟨S8192x8192, .f32⟩ : BufTy).Contents (Elt F) → (⟨S8192x8192, .f32⟩ : BufTy).Contents (Elt F) → (⟨S8192x8192, .f32⟩ : BufTy).Contents (Elt F)),
    unary main_arg1 main_v9 ((transpose S128x8192 [1, 0] · transposes_S8192x128_S128x8192_1_0) : (⟨S8192x128, .f32⟩ : BufTy).Contents (Elt F) → (⟨S128x8192, .f32⟩ : BufTy).Contents (Elt F)),
    binary main_arg0 main_v9 main_v10 ((fun l r => Host.dotGeneral dot_S8192x128_S128x8192_S8192x8192_1_0_0_1_n_n none l r) : (⟨S8192x128, .f32⟩ : BufTy).Contents (Elt F) → (⟨S128x8192, .f32⟩ : BufTy).Contents (Elt F) → (⟨S8192x8192, .f32⟩ : BufTy).Contents (Elt F)),
    nullary main_cst_1 (constant S_ .f32 0x40000000#32),
    unary main_cst_1 main_v11 (broadcastInDim S8192x8192 ![] bcast_S_S8192x8192 : (⟨S_, .f32⟩ : BufTy).Contents (Elt F) → (⟨S8192x8192, .f32⟩ : BufTy).Contents (Elt F)),
    binary main_v11 main_v10 main_v12 (mulf : (⟨S8192x8192, .f32⟩ : BufTy).Contents (Elt F) → (⟨S8192x8192, .f32⟩ : BufTy).Contents (Elt F) → (⟨S8192x8192, .f32⟩ : BufTy).Contents (Elt F)),
    binary main_v8 main_v12 main_v13 (subf : (⟨S8192x8192, .f32⟩ : BufTy).Contents (Elt F) → (⟨S8192x8192, .f32⟩ : BufTy).Contents (Elt F) → (⟨S8192x8192, .f32⟩ : BufTy).Contents (Elt F)),
    nullary main_cst_2 (constant S_ .f32 0x00000000#32),
    unary main_cst_2 main_v14 (broadcastInDim S8192x8192 ![] bcast_S_S8192x8192 : (⟨S_, .f32⟩ : BufTy).Contents (Elt F) → (⟨S8192x8192, .f32⟩ : BufTy).Contents (Elt F)),
    binary main_v13 main_v14 main_v15 (maximumf : (⟨S8192x8192, .f32⟩ : BufTy).Contents (Elt F) → (⟨S8192x8192, .f32⟩ : BufTy).Contents (Elt F) → (⟨S8192x8192, .f32⟩ : BufTy).Contents (Elt F)),
    unary main_v15 main_v16 (Host.sqrt : (⟨S8192x8192, .f32⟩ : BufTy).Contents (Elt F) → (⟨S8192x8192, .f32⟩ : BufTy).Contents (Elt F)),
    TRef.nullary main_call0.v0 (iotaInDim S8192x8192 32 0),
    TRef.nullary main_call0.v1 (iotaInDim S8192x8192 32 1),
    TRef.nullary main_call0.c (constantI S_ 32 0#32),
    TRef.unary main_call0.c main_call0.v2 (broadcastInDim S8192x8192 ![] bcast_S_S8192x8192),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S8192x8192 ![] bcast_S_S8192x8192),
    TRef.ternary main_call0.v4 (.of main_v16) main_call0.v5 main_call0.call0.v0 select,
    TRef.nullary main_call0.cst_0 (constant S_ .f32 0x00000000#32),
    TRef.binary main_call0.call0.v0 main_call0.cst_0 main_call0.v7 (fun x v => Host.reduceAdd x v reducesTo_S8192x8192_S_d0_1 h_S_),
    nullary main_cst_3 (constant S_ .f32 0x00000000#32),
    binary main_v16 main_cst_3 main_v18 ((fun x v => Host.reduceAdd x v reducesTo_S8192x8192_S_d0_1 h_S_) : (⟨S8192x8192, .f32⟩ : BufTy).Contents (Elt F) → (⟨S_, .f32⟩ : BufTy).Contents (Elt F) → (⟨S_, .f32⟩ : BufTy).Contents (Elt F)),
    binary main_v18 main_v17 main_v19 (subf : (⟨S_, .f32⟩ : BufTy).Contents (Elt F) → (⟨S_, .f32⟩ : BufTy).Contents (Elt F) → (⟨S_, .f32⟩ : BufTy).Contents (Elt F)),
    unary main_v17 main_v20 (Host.negf : (⟨S_, .f32⟩ : BufTy).Contents (Elt F) → (⟨S_, .f32⟩ : BufTy).Contents (Elt F)),
    nullary main_cst_4 (constant S_ .f32 0x3F800000#32),
    binary main_v20 main_cst_4 main_v21 (mulf : (⟨S_, .f32⟩ : BufTy).Contents (Elt F) → (⟨S_, .f32⟩ : BufTy).Contents (Elt F) → (⟨S_, .f32⟩ : BufTy).Contents (Elt F)),
    nullary main_cst_5 (constant S_ .f32 0x3F800000#32),
    binary main_v19 main_cst_5 main_v22 (mulf : (⟨S_, .f32⟩ : BufTy).Contents (Elt F) → (⟨S_, .f32⟩ : BufTy).Contents (Elt F) → (⟨S_, .f32⟩ : BufTy).Contents (Elt F)),
    binary main_v21 main_v22 main_v23 (addf : (⟨S_, .f32⟩ : BufTy).Contents (Elt F) → (⟨S_, .f32⟩ : BufTy).Contents (Elt F) → (⟨S_, .f32⟩ : BufTy).Contents (Elt F)),
    nullary main_cst_6 (constant S_ .f32 0x46000000#32),
    binary main_v23 main_cst_6 main_v24 (Host.divf : (⟨S_, .f32⟩ : BufTy).Contents (Elt F) → (⟨S_, .f32⟩ : BufTy).Contents (Elt F) → (⟨S_, .f32⟩ : BufTy).Contents (Elt F)),
    nullary main_cst_7 (constant S_ .f32 0x3DCCCCCD#32),
    binary main_v24 main_cst_7 main_v25 (mulf : (⟨S_, .f32⟩ : BufTy).Contents (Elt F) → (⟨S_, .f32⟩ : BufTy).Contents (Elt F) → (⟨S_, .f32⟩ : BufTy).Contents (Elt F)) ]

-- forty-five steps in sequence, re-associated one by one: the depth bound is raised accordingly
set_option maxRecDepth 1024 in
/-- The program is that straight line: the two called functions' definitions unfolded at their calls and the
    records at their fields, both sides are one chain of steps once sequencing is re-associated. -/
theorem main_eq (c : Dev nD) : main (F := F) c = seq ops := by
  simp only [main, fn_trace.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., nullary_bufs_sub .., binary_bufs_sub .., binary_bufs_sub .., nullary_bufs_sub .., binary_bufs_sub ..,
    unary_bufs_sub .., unary_bufs_sub .., unary_bufs_sub .., unary_bufs_sub .., binary_bufs_sub .., unary_bufs_sub ..,
    binary_bufs_sub .., nullary_bufs_sub .., unary_bufs_sub .., binary_bufs_sub .., binary_bufs_sub .., nullary_bufs_sub ..,
    unary_bufs_sub .., binary_bufs_sub .., unary_bufs_sub .., nullary_bufs_sub .., nullary_bufs_sub .., nullary_bufs_sub ..,
    unary_bufs_sub .., binary_bufs_sub .., binary_bufs_sub .., nullary_bufs_sub .., unary_bufs_sub .., ternary_bufs_sub ..,
    nullary_bufs_sub .., binary_bufs_sub .., nullary_bufs_sub .., binary_bufs_sub .., binary_bufs_sub .., unary_bufs_sub ..,
    nullary_bufs_sub .., binary_bufs_sub .., nullary_bufs_sub .., binary_bufs_sub .., binary_bufs_sub .., nullary_bufs_sub ..,
    binary_bufs_sub .., nullary_bufs_sub .., binary_bufs_sub ..⟩

/-- Every weakly fair execution of the reference terminates with its result at the loss of `totalOf` and `diagOf` of
    the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v25)
          = Cert.Spec.lossTail (totalOf (m ((c.tc : Thread nD τ).loc main_arg0)) (m ((c.tc : Thread nD τ).loc main_arg1)))
              (diagOf (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun _ h c => ?_)
    (run_seq scopedRefs_eq scopedSems_eq defs main (fun _ => ops) main_eq (fun _ => ops_sub) m ρ)
  -- one device only
  obtain rfl : c = 0 := Subsingleton.elim _ _
  refine ⟨(h 0 main_v25).trans ?_, (h 0 main_arg0).trans ?_, (h 0 main_arg1).trans ?_⟩
  · -- the result: each step's value read at its own buffer, composed back to the two arguments; the composed term is
    -- the loss of the two sums as defined above, the called functions' values carried through identity transports
    after_results_simp
    rfl
  · -- no step writes the first argument
    after_results_simp
  · -- no step writes the second argument
    after_results_simp

end Cert.ReferenceIdeal.RefRun

end
-- ==== Proof.RefRead.lean ====
/-
  The reference's two scalars read over the extended reals: the sum of its matrix of distances is `Cert.Spec.total`, and
  the sum of the matrix masked to its diagonal is `Cert.Spec.diagRef`.
-/
import proofs.«418502_j8641474199881_3_alg».proof.Proof.RefRun
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

open scoped BigOperators

namespace Cert.ReferenceIdeal.RefRead

open Idealize.ShloMosaic Idealize.ShloMosaic.ValueIdx
open Cert.ReferenceIdeal Cert.ReferenceIdeal.Facts₀ Cert.ReferenceIdeal.RefRun

/-- The row-reduction's source index over row `r` at column `k` is `(r, k)`. -/
theorem lift_row (h : S8192x128.Reduces [1] S8192) (r : Fin 8192) (k : Fin 128) :
    h.lift (ix1 r) k = ix2 r k := by
  funext a
  match a with
  | ⟨0, _⟩ => rfl
  | ⟨1, _⟩ => rfl

/-- The squared norms of the rows, read at a row: the sum of the squares of the row's entries. -/
theorem sqNorms_apply (X : FVec Ideal S8192x128 .f32) (r : Fin 8192) :
    sqNorms (F := Ideal) X (ix1 r) = Cert.Spec.rowSq X r := by
  have h : S8192x128.Reduces [1] S8192 := by decide
  unfold sqNorms Host.reduceAdd
  rw [Ideal.hostReduceAdd_def, Ideal.hostReduceAdd_single _ h, constant_apply, Ideal.ofBits_zero_f32, zero_add]
  unfold Cert.Spec.rowSq
  refine Finset.sum_congr rfl fun k _ => ?_
  rw [mulf_apply, lift_row h r k]

/-- The left operand's index of the product at result index `j` keeps `j`'s row on its first axis … -/
theorem lhs_dot_0 (j : S8192x8192.Idx) (k : dot_S8192x128_S128x8192_S8192x8192_1_0_0_1_n_n.contr.Idx) :
    (dot_S8192x128_S128x8192_S8192x8192_1_0_0_1_n_n.lhsIdx j k 0).val = (j 0).val := by
  simp [DotDims.lhsIdx, dot_S8192x128_S128x8192_S8192x8192_1_0_0_1_n_n]; rfl

/-- … and reads the contraction coordinate on its second. -/
theorem lhs_dot_1 (j : S8192x8192.Idx) (k : dot_S8192x128_S128x8192_S8192x8192_1_0_0_1_n_n.contr.Idx) :
    (dot_S8192x128_S128x8192_S8192x8192_1_0_0_1_n_n.lhsIdx j k 1).val = (k ⟨0, by decide⟩).val :=
  dot_S8192x128_S128x8192_S8192x8192_1_0_0_1_n_n.lhsIdx_val_of_single rfl j k

/-- The right operand's index reads the contraction coordinate on its first axis … -/
theorem rhs_dot_0 (j : S8192x8192.Idx) (k : dot_S8192x128_S128x8192_S8192x8192_1_0_0_1_n_n.contr.Idx) :
    (dot_S8192x128_S128x8192_S8192x8192_1_0_0_1_n_n.rhsIdx j k 0).val = (k ⟨0, by decide⟩).val :=
  dot_S8192x128_S128x8192_S8192x8192_1_0_0_1_n_n.rhsIdx_val_of_single rfl j k

/-- … and keeps `j`'s column on its second. -/
theorem rhs_dot_1 (j : S8192x8192.Idx) (k : dot_S8192x128_S128x8192_S8192x8192_1_0_0_1_n_n.contr.Idx) :
    (dot_S8192x128_S128x8192_S8192x8192_1_0_0_1_n_n.rhsIdx j k 1).val = (j 1).val := by
  simp [DotDims.rhsIdx, dot_S8192x128_S128x8192_S8192x8192_1_0_0_1_n_n]; rfl

/-- The product of `X` with the transpose of `Y`, read at `(r, c)`: the inner product of row `r` of `X` with row `c` of `Y`. -/
theorem dot_apply (X Y : FVec Ideal S8192x128 .f32) (r c : Fin 8192) :
    Host.dotGeneral dot_S8192x128_S128x8192_S8192x8192_1_0_0_1_n_n none X
      (transpose S128x8192 [1, 0] Y transposes_S8192x128_S128x8192_1_0) (ix2 r c) = Cert.Spec.rowDot X Y r c := by
  show FloatOps.dotGeneral _ none _ X _ (ix2 r c) = _
  rw [Ideal.dotGeneral_apply,
    ← Equiv.sum_comp (contrEquiv1 dot_S8192x128_S128x8192_S8192x8192_1_0_0_1_n_n 128 rfl rfl).symm]
  unfold Cert.Spec.rowDot
  refine Finset.sum_congr rfl fun k _ => ?_
  have ck := contrEquiv1_symm_val dot_S8192x128_S128x8192_S8192x8192_1_0_0_1_n_n 128 rfl rfl k
  have l2 : dot_S8192x128_S128x8192_S8192x8192_1_0_0_1_n_n.lhsIdx (ix2 r c)
      ((contrEquiv1 dot_S8192x128_S128x8192_S8192x8192_1_0_0_1_n_n 128 rfl rfl).symm k) = ix2 r k := by
    funext a; apply Fin.ext
    match a with
    | ⟨0, _⟩ => exact lhs_dot_0 _ _
    | ⟨1, _⟩ => exact (lhs_dot_1 _ _).trans ck
  have r2 : dot_S8192x128_S128x8192_S8192x8192_1_0_0_1_n_n.rhsIdx (ix2 r c)
      ((contrEquiv1 dot_S8192x128_S128x8192_S8192x8192_1_0_0_1_n_n 128 rfl rfl).symm k) = ix2 k c := by
    funext a; apply Fin.ext
    match a with
    | ⟨0, _⟩ => exact (rhs_dot_0 _ _).trans ck
    | ⟨1, _⟩ => exact rhs_dot_1 _ _
  rw [l2, r2, transpose_ix2_apply]

/-- A vector laid along the rows of the square (each row constant) reads, at `(r, c)`, the vector at `r`. -/
theorem bcast_row_apply {α : Type} (v : S8192.Idx → α) (r c : Fin 8192) :
    broadcastInDim S8192x8192 ![0, 1] bcast_S8192x1_S8192x8192_0_1 (broadcastInDim S8192x1 ![0] bcast_S8192_S8192x1_0 v) (ix2 r c)
      = v (ix1 r) := by
  refine (broadcastInDim_apply _ _ _ (ix2 r c) (ix2 r (0 : Fin 1)) fun a => ?_).trans
    (broadcastInDim_apply _ _ v (ix2 r (0 : Fin 1)) (ix1 r) fun a => ?_)
  · match a with
    | ⟨0, _⟩ => rfl
    | ⟨1, _⟩ => rfl
  · match a with
    | ⟨0, _⟩ => rfl

/-- A vector laid along the columns of the square (each column constant) reads, at `(r, c)`, the vector at `c`. -/
theorem bcast_col_apply {α : Type} (v : S8192.Idx → α) (r c : Fin 8192) :
    broadcastInDim S8192x8192 ![0, 1] bcast_S1x8192_S8192x8192_0_1 (broadcastInDim S1x8192 ![1] bcast_S8192_S1x8192_1 v) (ix2 r c)
      = v (ix1 c) := by
  refine (broadcastInDim_apply _ _ _ (ix2 r c) (ix2 (0 : Fin 1) c) fun a => ?_).trans
    (broadcastInDim_apply _ _ v (ix2 (0 : Fin 1) c) (ix1 c) fun a => ?_)
  · match a with
    | ⟨0, _⟩ => rfl
    | ⟨1, _⟩ => rfl
  · match a with
    | ⟨0, _⟩ => rfl

/-- A scalar constant laid over the whole square reads, everywhere, the extended real its word encodes. -/
theorem bcast_const_apply (w : BitVec 32) (j : S8192x8192.Idx) :
    broadcastInDim S8192x8192 ![] bcast_S_S8192x8192 (constant (F := Ideal) S_ .f32 w) j = Ideal.ofBits .f32 w :=
  broadcastInDim_apply _ _ _ j ix0 fun a => a.elim0

/-- An entry of the reference's matrix of distances is the distance of the two rows. -/
theorem dMat_apply (X Y : FVec Ideal S8192x128 .f32) (r c : Fin 8192) :
    dMat (F := Ideal) X Y (ix2 r c) = Cert.Spec.dist X Y r c := by
  unfold dMat
  show FloatOps.hostUnary .sqrt _ = _
  rw [Ideal.hostUnary_sqrt_def, maximumf_apply, subf_apply, addf_apply, mulf_apply, bcast_row_apply, bcast_col_apply,
    bcast_const_apply, bcast_const_apply, sqNorms_apply, sqNorms_apply, dot_apply, Ideal.ofBits_zero_f32]
  rfl

/-- Two coordinates of the square, as 32-bit words, are equal only if they are equal: both are below 2³². -/
theorem ofNat_coord_inj {a b : Nat} (ha : a < 8192) (hb : b < 8192) (h : BitVec.ofNat 32 a = BitVec.ofNat 32 b) : a = b := by
  have e := congrArg BitVec.toNat h
  simp only [BitVec.toNat_ofNat] at e
  omega

/-- The mask is set exactly on the diagonal. -/
theorem diagMask_apply (i : S8192x8192.Idx) : diagMask i = if (i 0).val = (i 1).val then 1#1 else 0#1 := by
  have e : diagMask i = IntOp.cmpi .eq (BitVec.ofNat 32 (i 0).val) (BitVec.ofNat 32 (i 1).val) := by
    unfold diagMask
    show IntOp.cmpi .eq (IntOp.addi (BitVec.ofNat 32 (i 0).val) (0#32)) (BitVec.ofNat 32 (i 1).val) = _
    rw [show IntOp.addi (BitVec.ofNat 32 (i 0).val) (0#32) = BitVec.ofNat 32 (i 0).val from BitVec.add_zero _]
  rw [e]
  by_cases h : (i 0).val = (i 1).val
  · rw [if_pos h]
    exact StableHlo.Predicate.cmpi_eq_iff.mpr (by rw [h])
  · rw [if_neg h]
    exact eq_zero_of_ne_one fun h1 =>
      h (ofNat_coord_inj (idx2_lt0 i) (idx2_lt1 i) (StableHlo.Predicate.cmpi_eq_iff.mp h1))

/-- An entry of the matrix of distances at any index of the square. -/
theorem dMat_apply_idx (X Y : FVec Ideal S8192x128 .f32) (i : S8192x8192.Idx) :
    dMat (F := Ideal) X Y i = Cert.Spec.dist X Y (i 0) (i 1) :=
  (congrArg (dMat X Y) (eq_ix2 i)).trans (dMat_apply X Y (i 0) (i 1))

/-- The sum of the whole matrix of distances, from the zero, is the total of all distances. -/
theorem totalOf_eq (X Y : FVec Ideal S8192x128 .f32) :
    totalOf (F := Ideal) X Y = fun _ => Cert.Spec.total X Y := by
  funext j
  unfold totalOf Host.reduceAdd
  rw [Ideal.hostReduceAdd_def, Ideal.hostReduceAdd_total _ (fun b => b.elim0), constant_apply, Ideal.ofBits_zero_f32, zero_add,
    ← Cert.Spec.sum_dist_eq_total X Y]
  exact Finset.sum_congr rfl fun i _ => dMat_apply_idx X Y i

/-- The sum of the matrix with zero off the diagonal, from the zero, is the sum of the diagonal distances. -/
theorem diagOf_eq (X Y : FVec Ideal S8192x128 .f32) :
    diagOf (F := Ideal) X Y = fun _ => Cert.Spec.diagRef X Y := by
  funext j
  unfold diagOf Host.reduceAdd
  rw [Ideal.hostReduceAdd_def, Ideal.hostReduceAdd_total _ (fun b => b.elim0), constant_apply, Ideal.ofBits_zero_f32, zero_add,
    ← Cert.Spec.sum_diag_eq_diagRef X Y]
  refine Finset.sum_congr rfl fun i _ => ?_
  rw [select_apply, diagMask_apply, bcast_const_apply, Ideal.ofBits_zero_f32]
  by_cases h : (i 0).val = (i 1).val
  · rw [if_pos h, if_pos h, select_one]; exact dMat_apply_idx X Y i
  · rw [if_neg h, if_neg h, select_zero]

end Cert.ReferenceIdeal.RefRead

end
-- ==== Proof.lean ====
/-
  The certificate's claims, assembled.

  Both programs compute the same affine function (`Cert.Spec.lossTail`) of two scalars. The first scalar is the sum of
  all 8192 × 8192 distances dist r c = sqrt (max ((|X r|² + |Y c|²) - 2·⟨X r, Y c⟩) 0): the reference sums the whole
  matrix at once, the kernel program sums it column by column, eight slabs of 1024 rows at a time on a grid, and then
  sums the 8192 column sums; on the extended reals addition is commutative and associative, so the two orders agree
  with no condition on the entries. The second scalar is the sum of the diagonal distances: the reference masks the
  matrix to its diagonal, the kernel program recomputes each entry as sqrt (max (∑ₖ (X r k - Y r k)²) 0). These agree
  because (x - y)² = x² + y² - 2xy on the reals, which is where the precondition (every entry finite) is used: on the
  extended reals the identity fails at the infinities.
  The three frames: the two kernel programs' are the generated frame runs; the reference has no grid, and its frame is
  its run with the result dropped. The idealization rewrote nothing, so `preserves` is trivial.
-/
import proofs.«418502_j8641474199881_3_alg».proof.Defs
import proofs.«418502_j8641474199881_3_alg».proof.Proof.Gen.Kernel
import proofs.«418502_j8641474199881_3_alg».proof.Proof.Gen.Kernel.Skeleton
import proofs.«418502_j8641474199881_3_alg».proof.Proof.Gen.Kernel.Launch
import proofs.«418502_j8641474199881_3_alg».proof.Proof.Gen.Kernel.Points
import proofs.«418502_j8641474199881_3_alg».proof.Proof.Gen.Kernel.Frame
import proofs.«418502_j8641474199881_3_alg».proof.Proof.Gen.KernelIdeal
import proofs.«418502_j8641474199881_3_alg».proof.Proof.Gen.KernelIdeal.Skeleton
import proofs.«418502_j8641474199881_3_alg».proof.Proof.Gen.KernelIdeal.Launch
import proofs.«418502_j8641474199881_3_alg».proof.Proof.Gen.KernelIdeal.Points
import proofs.«418502_j8641474199881_3_alg».proof.Proof.Gen.KernelIdeal.Frame
import proofs.«418502_j8641474199881_3_alg».proof.Proof.Gen.ReferenceIdeal
import proofs.«418502_j8641474199881_3_alg».proof.Proof.Gen.Pre_finite_inputs
import proofs.«418502_j8641474199881_3_alg».proof.Proof.Spec
import proofs.«418502_j8641474199881_3_alg».proof.Proof.Finite
import proofs.«418502_j8641474199881_3_alg».proof.Proof.KFinal
import proofs.«418502_j8641474199881_3_alg».proof.Proof.RefRun
import proofs.«418502_j8641474199881_3_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end at the loss of the total and the diagonal sum of the same two arrays. -/
theorem algebraic : Cert.algebraic_KernelIdeal_ReferenceIdeal := by
  intro m ρ m' ρ' hpre hagree
  refine ⟨fun c => Cert.Spec.lossTail (F := Ideal)
      (fun _ => Cert.Spec.total (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (fun _ => Cert.Spec.diagRef (m ((c.tc : Thread Cert.KernelIdeal.nD Cert.KernelIdeal.τ).loc Cert.KernelIdeal.main_arg0))
        (m ((c.tc : Thread Cert.KernelIdeal.nD Cert.KernelIdeal.τ).loc Cert.KernelIdeal.main_arg1))), ?_, ?_⟩
  · refine (θ_run Cert.KernelIdeal.defs _ _).mono (fun r h c => ⟨(h c).1.trans ?_, (h c).2⟩)
      (Cert.KernelIdeal.Final.run m ρ)
    obtain ⟨hX, hY⟩ := Cert.Finite.finite_of_pre _ _ (hpre c)
    rw [Cert.KernelIdeal.KRead.totalOfK_eq (Cert.KernelIdeal.Final.colSums m c) (Cert.KernelIdeal.Acc.xarr m c)
        (Cert.KernelIdeal.Acc.yarr m c) (fun _ => rfl),
      Cert.KernelIdeal.KRead.diagOfK_eq,
      Cert.Spec.diagKer_eq_diagRef (Cert.KernelIdeal.Acc.xarr m c) (Cert.KernelIdeal.Acc.yarr m c) hX hY]
    rfl
  · refine (θ_run Cert.ReferenceIdeal.defs _ _).mono (fun r h c => ⟨(h c).1.trans ?_, (h c).2⟩)
      (Cert.ReferenceIdeal.RefRun.run (F := Ideal) m' ρ')
    rw [(hagree c).1, (hagree c).2, Cert.ReferenceIdeal.RefRead.totalOf_eq, Cert.ReferenceIdeal.RefRead.diagOf_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
